-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8x1x128 : Shape := ⟨3, ![8, 1, 128]⟩
abbrev S1024x1024 : Shape := ⟨2, ![1024, 1024]⟩
abbrev S1x1x128 : Shape := ⟨3, ![1, 1, 128]⟩
abbrev S1x1 : Shape := ⟨2, ![1, 1]⟩
abbrev S1x1024x1024 : Shape := ⟨3, ![1, 1024, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  transposes_S1024x1024_p1_0_S1024x1024 : S1024x1024.Transposes [1, 0] S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.PointValue.lean ====
/-
  What one grid point leaves behind, case by case, as values.

  The body keeps a one-element running total in scratch memory and has three ways through its two conditionals.
  At the first column step of a row band (case A) it resets the scratch to zero, then adds the point's contribution
  to what it reads back: the scratch ends at the accumulating store's value over the reset's value. At a middle
  column step (case B) it adds the contribution to what the previous point left. At the last column step (case C) it
  does the same, then reads the scratch back and spreads its one entry over the output row's 128 lanes. Each store
  covers its whole buffer, so the buffer ends holding exactly the last store's value, and a load after a covering
  store reads that store's value.
-/
import proofs.«103511_j2070174236952_1_alg».proof.Proof.Gen.KernelIdeal.Frame
import Idealize.ShloMosaic.Lib.Pipeline.Value
import Idealize.ShloMosaic.Lib.Tactic

set_option maxRecDepth 16384

noncomputable section

namespace Cert.KernelIdeal.PointValue

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- CASE B: the scratch ends at the accumulating store's value over what the point before left. -/
theorem scratch_B (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1x128 .f32) (harg4 : arg4.IsWhole)
    (arg5 : Memref sig .tc .vmem S1x1 .f32) (harg5 : arg5.IsWhole) (hc0 : ¬cond0_0 i) (hc1 : ¬cond0_1 i)
    (x0 x1 : Vec F S1024x1024 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1024x1024) hz2, View.ld_unit_zero (S := S1x1) hz2]

/-- CASE A: the scratch is reset, then read back and accumulated into: the accumulating store's value over the reset's. -/
theorem scratch_A (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1x128 .f32) (harg4 : arg4.IsWhole)
    (arg5 : Memref sig .tc .vmem S1x1 .f32) (harg5 : arg5.IsWhole) (hc0 : cond0_0 i) (hc1 : ¬cond0_1 i)
    (x0 x1 : Vec F S1024x1024 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread,
    View.ld_unit_zero (S := S1024x1024) hz2, View.ld_unit_zero (S := S1x1) hz2]

/-- CASE C: the scratch ends as in case B; -/
theorem scratch_C (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1x128 .f32) (harg4 : arg4.IsWhole)
    (arg5 : Memref sig .tc .vmem S1x1 .f32) (harg5 : arg5.IsWhole) (hc0 : ¬cond0_0 i) (hc1 : cond0_1 i)
    (x0 x1 : Vec F S1024x1024 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1024x1024) hz2, View.ld_unit_zero (S := S1x1) hz2]

/-- and the output row's staging buffer ends at the final store's value over the scratch just written. -/
theorem row_C (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1x128 .f32) (harg4 : arg4.IsWhole)
    (arg5 : Memref sig .tc .vmem S1x1 .f32) (harg5 : arg5.IsWhole) (hc0 : ¬cond0_0 i) (hc1 : cond0_1 i)
    (x0 x1 : Vec F S1024x1024 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S1024x1024) hz2, View.ld_unit_zero (S := S1x1) hz2, View.readCov_unit_zero (S := S1x1) _ hz2]

end Cert.KernelIdeal.PointValue

end
-- ==== Proof.GramSquares.lean ====
/-
  The quantity both programs compute, and the one law that joins their two arrangements of it.

  For X, Y of shape [8192, 1024] over the extended reals, let  gram n m = Σ_d X[n, d] · Y[m, d]  be the (n, m)
  entry of X·Yᵀ. The reference sums  gram n m · gram n m  over all 8192 × 8192 pairs at once. The kernel cuts
  the rows of X and of Y into eight bands of 1024 rows each, and for the band pair (i, j) sums the same squares
  over the 1024 × 1024 pairs inside it; the eight contributions of a fixed i are added up one after another, and
  the eight row-band totals are added at the end. Addition on the extended reals is commutative and associative
  (it is a commutative monoid), so regrouping a finite sum by bands changes nothing: no finiteness of the
  entries is needed, and none is used.
-/
import Idealize.ShloMosaic.PureOps.Ideal
import Idealize.ShloMosaic.Lib.ValueIdx

noncomputable section

namespace Cert.GramSquares

open Idealize.ShloMosaic Idealize.ShloMosaic.ValueIdx
open scoped BigOperators

/-- Row `p` of band `i`: the bands are consecutive runs of 1024 rows. -/
def bandRow (i : Fin 8) (p : Fin 1024) : Fin 8192 := ⟨1024 * i.val + p.val, by have := i.isLt; have := p.isLt; omega⟩

/-- A row number is a band and a position inside it, and conversely. -/
def bandEquiv : Fin 8 × Fin 1024 ≃ Fin 8192 where
  toFun x := bandRow x.1 x.2
  invFun n := (⟨n.val / 1024, by have := n.isLt; omega⟩, ⟨n.val % 1024, by omega⟩)
  left_inv x := by
    obtain ⟨i, p⟩ := x
    have hi := i.isLt; have hp := p.isLt
    refine Prod.ext (Fin.ext ?_) (Fin.ext ?_)
    · show (1024 * i.val + p.val) / 1024 = i.val; omega
    · show (1024 * i.val + p.val) % 1024 = p.val; omega
  right_inv n := by
    apply Fin.ext
    show 1024 * (n.val / 1024) + n.val % 1024 = n.val
    omega

/-- A sum over all rows is the sum over the bands of the sums inside each band. -/
theorem sum_by_bands {M : Type*} [AddCommMonoid M] (f : Fin 8192 → M) :
    ∑ n, f n = ∑ i : Fin 8, ∑ p : Fin 1024, f (bandRow i p) := by
  rw [← Equiv.sum_comp bandEquiv f, Fintype.sum_prod_type]
  rfl

/-- The (n, m) entry of X·Yᵀ: row n of X against row m of Y. -/
def gram (X Y : (⟨2, ![8192, 1024]⟩ : Shape).Idx → EReal) (n m : Fin 8192) : EReal :=
  ∑ d : Fin 1024, X (ix2 n d) * Y (ix2 m d)

/-- The squared Frobenius norm of X·Yᵀ, summed pair by pair. -/
def total (X Y : (⟨2, ![8192, 1024]⟩ : Shape).Idx → EReal) : EReal :=
  ∑ n : Fin 8192, ∑ m : Fin 8192, gram X Y n m * gram X Y n m

/-- What the band pair (i, j) contributes: the squares of the entries of X·Yᵀ in rows of band i and columns of band j. -/
def bandPair (X Y : (⟨2, ![8192, 1024]⟩ : Shape).Idx → EReal) (i j : Fin 8) : EReal :=
  ∑ p : Fin 1024, ∑ q : Fin 1024, gram X Y (bandRow i p) (bandRow j q) * gram X Y (bandRow i p) (bandRow j q)

/-- THE LAW: the sum over all pairs is the sum over the band pairs of their contributions. -/
theorem total_eq_bands (X Y : (⟨2, ![8192, 1024]⟩ : Shape).Idx → EReal) :
    total X Y = ∑ i : Fin 8, ∑ j : Fin 8, bandPair X Y i j := by
  unfold total bandPair
  rw [sum_by_bands]
  refine Finset.sum_congr rfl fun i _ => ?_
  conv_rhs => rw [Finset.sum_comm]
  refine Finset.sum_congr rfl fun p _ => ?_
  exact sum_by_bands _

/-- The same contribution computed from two 1024 × 1024 blocks alone: `x` a band of X, `y` a band of Y. -/
def blockPair (x y : (⟨2, ![1024, 1024]⟩ : Shape).Idx → EReal) : EReal :=
  ∑ p : Fin 1024, ∑ q : Fin 1024, (∑ d : Fin 1024, x (ix2 p d) * y (ix2 q d)) * (∑ d : Fin 1024, x (ix2 p d) * y (ix2 q d))

/-- When `x` is band i of X and `y` is band j of Y, the blocks' contribution is the band pair's. -/
theorem blockPair_eq_bandPair (X Y : (⟨2, ![8192, 1024]⟩ : Shape).Idx → EReal) (i j : Fin 8)
    (x y : (⟨2, ![1024, 1024]⟩ : Shape).Idx → EReal)
    (hx : ∀ (p d : Fin 1024), x (ix2 p d) = X (ix2 (bandRow i p) d))
    (hy : ∀ (q d : Fin 1024), y (ix2 q d) = Y (ix2 (bandRow j q) d)) :
    blockPair x y = bandPair X Y i j := by
  unfold blockPair bandPair gram
  refine Finset.sum_congr rfl fun p _ => Finset.sum_congr rfl fun q _ => ?_
  have e : (∑ d : Fin 1024, x (ix2 p d) * y (ix2 q d)) = ∑ d : Fin 1024, X (ix2 (bandRow i p) d) * Y (ix2 (bandRow j q) d) :=
    Finset.sum_congr rfl fun d _ => by rw [hx, hy]
  rw [e]

end Cert.GramSquares

end
-- ==== Proof.LibSumIdx.lean ====
/-
  Sums over index sets of rank 3 and rank 4, by coordinates: such an index set is the product of its coordinate
  ranges, so a sum over it (in any commutative monoid) is the iterated sum over the coordinates, outermost
  coordinate first. The rank-2 case is the library's sum_idx2; these follow it.
-/
import Idealize.ShloMosaic.Lib.ValueIdx

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over one coordinate range of extent one is its one term. -/
theorem sum_fin_one {M : Type*} [AddCommMonoid M] (f : Fin 1 → M) : ∑ a : Fin 1, f a = f 0 := by
  simp

end Cert.LibSumIdx
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.BlockValue.lean ====
/-
  What the kernel body's three stores write, read at the ideal instance.

  The body at one grid point holds a 1024 × 1024 block `x` of X and a 1024 × 1024 block `y` of Y. The narrowing to
  bf16 is the identity on extended reals, so the matrix product into the zero accumulator has at (p, q) the entry
  Σ_d x[p, d] · yᵀ[d, q] = Σ_d x[p, d] · y[q, d]. Squaring entrywise, viewing the result with a leading unit axis and
  summing over the two long axes into a one-element vector gives the sum of all 1024 × 1024 squares: the blocks'
  contribution `blockPair x y`. The running total in the one-element scratch is that contribution added to what the
  scratch held; the reset writes zero; the final store copies the scratch's one entry to every lane of the output row.
-/
import proofs.«103511_j2070174236952_1_alg».proof.Proof.Gen.KernelIdeal.Skeleton
import proofs.«103511_j2070174236952_1_alg».proof.Proof.GramSquares
import proofs.«103511_j2070174236952_1_alg».proof.Proof.LibSumIdx
import proofs.«103511_j2070174236952_1_alg».proof.Proof.LibPlainMatmul
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.GramSquares
open Idealize.ShloMosaic Idealize.ShloMosaic.ValueIdx
open scoped BigOperators

/-- The (p, q) entry of the product of `x` with the transpose of `y`, into zero: row p of `x` against row q of `y`. -/
theorem product_entry (x y : FVec Ideal S1024x1024 .f32) (p q : Fin 1024) :
    matmul dot_S1024x1024_S1024x1024_S1024x1024_1_0_0_1_n_n none (truncf .bf16 x bitsLt_bf16_f32)
      (transpose S1024x1024 [1, 0] (truncf .bf16 y bitsLt_bf16_f32) transposes_S1024x1024_p1_0_S1024x1024)
      (constant (F := Ideal) S1024x1024 .f32 0x00000000#32) (ix2 p q)
    = ∑ d : Fin 1024, x (ix2 p d) * y (ix2 q d) := by
  rw [Cert.PlainMatmul.matmul_zero_apply _ rfl rfl rfl rfl rfl rfl]
  refine Finset.sum_congr rfl fun d _ => ?_
  rw [transpose_ix2_apply]
  rfl

/-- Summing a [1, 1024, 1024] array over its two long axes into one element, then reading that element out:
    the sum of every entry. -/
theorem lane_total (v : FVec Ideal S1x1024x1024 .f32) :
    extractAt ![0, 0, 0] (shapeCast S1x1x1 (multiReduction .add [1, 2] S1 v 0x00000000#32 reduces_S1x1024x1024_S1 (.inl rfl) rfl)
      shapeCasts_S1_S1x1x1) inpos_S1x1x1_p0_0_0 = ∑ J : S1x1024x1024.Idx, v J := by
  unfold extractAt shapeCast
  exact Ideal.multiReduction_add_total v _ _ (fun b => by match b with | ⟨0, _⟩ => rfl) _ _ _

/-- The sum of the squared product entries over the block, through the unit-axis view, is the blocks' contribution. -/
theorem squares_total (x y : FVec Ideal S1024x1024 .f32) :
    (∑ J : S1x1024x1024.Idx, shapeCast S1x1024x1024
      (mulf (matmul dot_S1024x1024_S1024x1024_S1024x1024_1_0_0_1_n_n none (truncf .bf16 x bitsLt_bf16_f32)
          (transpose S1024x1024 [1, 0] (truncf .bf16 y bitsLt_bf16_f32) transposes_S1024x1024_p1_0_S1024x1024)
          (constant (F := Ideal) S1024x1024 .f32 0x00000000#32))
        (matmul dot_S1024x1024_S1024x1024_S1024x1024_1_0_0_1_n_n none (truncf .bf16 x bitsLt_bf16_f32)
          (transpose S1024x1024 [1, 0] (truncf .bf16 y bitsLt_bf16_f32) transposes_S1024x1024_p1_0_S1024x1024)
          (constant (F := Ideal) S1024x1024 .f32 0x00000000#32)))
      shapeCasts_S1024x1024_S1x1024x1024 J) = blockPair x y := by
  rw [Cert.LibSumIdx.sum_idx3, Cert.LibSumIdx.sum_fin_one]
  unfold blockPair
  refine Finset.sum_congr rfl fun p _ => Finset.sum_congr rfl fun q _ => ?_
  rw [shapeCast_ab_1ab_apply, mulf_apply, product_entry]

/-- THE ACCUMULATING STORE: the scratch's entry plus the blocks' contribution. -/
theorem accumulate_apply (x y : FVec Ideal S1024x1024 .f32) (acc : FVec Ideal S1x1 .f32) (j : S1x1.Idx) :
    k0_pay2 (F := Ideal) x y acc j = acc j + blockPair x y := by
  unfold k0_pay2
  try dsimp only
  rw [shapeCast_self, addf_apply, broadcast_apply, lane_total, squares_total]

/-- With the scratch constant, so is what the accumulating store writes. -/
theorem accumulate_const (x y : FVec Ideal S1024x1024 .f32) (a : EReal) :
    k0_pay2 (F := Ideal) x y (fun _ => a) = fun _ => a + blockPair x y :=
  funext fun j => accumulate_apply x y (fun _ => a) j

/-- THE RESET writes zero. -/
theorem reset_eq : k0_pay1 (F := Ideal) = fun _ => (0 : EReal) := by
  funext j
  unfold k0_pay1
  try dsimp only
  rw [shapeCast_self, broadcast_apply]
  exact Ideal.ofBits_zero_f32

/-- THE FINAL STORE copies a constant scratch's value to every lane. -/
theorem spread_const (a : EReal) : k0_pay3 (F := Ideal) (fun _ => a) = fun _ => a := rfl

end Cert.KernelIdeal.BlockValue

end
-- ==== Proof.RunningTotal.lean ====
/-
  The running total, point by point.

  The grid's 64 points are visited in order n = 0, 1, …, 63; point n works on row band n / 8 of X and row band
  n % 8 of Y and contributes `contrib n`, the sum of the squared entries of that band pair's block of X·Yᵀ. The
  one-element scratch is reset at the first point of each row band (n % 8 = 0) and accumulated into at every point,
  so after point n it holds the sum of the contributions of the points of n's row band up to n: `running n`. At
  the last point of a row band (n % 8 = 7) that total is also spread over the output row's staging buffer. Both are
  proved by induction on n from the three cases' values; the only arithmetic on the extended reals is 0 + a = a.
-/
import proofs.«103511_j2070174236952_1_alg».proof.Proof.PointValue
import proofs.«103511_j2070174236952_1_alg».proof.Proof.BlockValue

set_option maxRecDepth 16384

noncomputable section

namespace Cert.KernelIdeal.RunningTotal

open Cert.KernelIdeal Cert.KernelIdeal.Gen Cert.GramSquares Cert.KernelIdeal.BlockValue Cert.KernelIdeal.PointValue
open Idealize.ShloMosaic Idealize.ShloMosaic.TcCoe Idealize.SL.Sem
open scoped BigOperators

variable (m : (ℓ : Loc nD τ sig) → Buf (Elt Ideal) ℓ)

/-- The block of X, and the block of Y, that point `t` works on. -/
abbrev xblk (c : Dev nD) (t : Fin cfg0.N) : FVec Ideal S1024x1024 .f32 := iblk m c 0 t
abbrev yblk (c : Dev nD) (t : Fin cfg0.N) : FVec Ideal S1024x1024 .f32 := iblk m c 1 t

/-- What point `n` contributes. -/
def contrib (c : Dev nD) (n : ℕ) : EReal :=
  if h : n < cfg0.N then blockPair (xblk m c ⟨n, h⟩) (yblk m c ⟨n, h⟩) else 0

/-- The contributions of the points of `n`'s row band, from its first point up to `n`. -/
def running (c : Dev nD) (n : ℕ) : EReal := ∑ k ∈ Finset.range (n % 8 + 1), contrib m c (n - n % 8 + k)

theorem running_first (c : Dev nD) (n : ℕ) (h0 : n % 8 = 0) : running m c n = contrib m c n := by
  unfold running
  rw [h0]
  simp

theorem running_next (c : Dev nD) (n : ℕ) (h0 : ¬(n + 1) % 8 = 0) :
    running m c (n + 1) = running m c n + contrib m c (n + 1) := by
  unfold running
  have e1 : (n + 1) % 8 = n % 8 + 1 := by omega
  have e2 : n + 1 - (n % 8 + 1) = n - n % 8 := by omega
  rw [e1, e2, Finset.sum_range_succ]
  have e3 : n - n % 8 + (n % 8 + 1) = n + 1 := by omega
  rw [e3]

/-- THE INVARIANT: after point `n` the scratch holds the running total. -/
theorem scratch_eq (c : Dev nD) : ∀ (n : ℕ) (h : n < cfg0.N), (outsAt0 m c n h).2 = fun _ => running m c n
  | 0, h => by
    rw [outsAt0_A m c ⟨0, h⟩ rfl (by simp)]
    dsimp only
    rw [scratch_A, reset_eq, accumulate_const, running_first m c 0 rfl]
    funext _
    unfold contrib
    rw [dif_pos h, zero_add]
  | n + 1, h => by
    have ih := scratch_eq c n (Nat.lt_of_succ_lt h)
    by_cases h0 : (n + 1) % 8 = 0
    · have h1 : ¬(n + 1) % 8 = 7 := by omega
      rw [outsAt0_A m c ⟨n + 1, h⟩ h0 h1]
      dsimp only
      rw [scratch_A, reset_eq, accumulate_const, running_first m c (n + 1) h0]
      funext _
      unfold contrib
      rw [dif_pos h, zero_add]
    · by_cases h1 : (n + 1) % 8 = 7
      · rw [outsAt0_C m c ⟨n + 1, h⟩ h0 h1]
        dsimp only
        rw [scratch_C]
        show k0_pay2 _ _ (outsAt0 m c n _).2 = _
        rw [ih, accumulate_const, running_next m c n h0]
        funext _
        unfold contrib
        rw [dif_pos h]
      · rw [outsAt0_B m c ⟨n + 1, h⟩ h0 h1]
        dsimp only
        rw [scratch_B]
        show k0_pay2 _ _ (outsAt0 m c n _).2 = _
        rw [ih, accumulate_const, running_next m c n h0]
        funext _
        unfold contrib
        rw [dif_pos h]

/-- At the last point of a row band the output row's staging buffer holds the band's total in every lane. -/
theorem row_eq (c : Dev nD) (n : ℕ) (h : n < cfg0.N) (h1 : n % 8 = 7) : (outsAt0 m c n h).1 = fun _ => running m c n := by
  obtain ⟨k, rfl⟩ : ∃ k, n = k + 1 := ⟨n - 1, by omega⟩
  have h0 : ¬(k + 1) % 8 = 0 := by omega
  rw [outsAt0_C m c ⟨k + 1, h⟩ h0 h1]
  dsimp only
  rw [row_C]
  show k0_pay3 (k0_pay2 _ _ (outsAt0 m c k _).2) = _
  rw [scratch_eq m c k, accumulate_const, spread_const, running_next m c k h0]
  funext _
  unfold contrib
  rw [dif_pos h]

end Cert.KernelIdeal.RunningTotal

end
-- ==== Proof.BandBlocks.lean ====
/-
  Which rows a grid point works on.

  Point t of the 8 × 8 grid stages block (t / 8, 0) of X and block (t % 8, 0) of Y, each of 1024 rows by the
  whole 1024 columns: entry (p, d) of the staged block of X is X[1024 · (t / 8) + p, d], and likewise for Y with
  t % 8. So the point's contribution — computed from the two blocks alone — is the contribution of the band pair
  (t / 8, t % 8) of the whole arrays.
-/
import proofs.«103511_j2070174236952_1_alg».proof.Proof.RunningTotal

set_option maxRecDepth 16384

noncomputable section

namespace Cert.KernelIdeal.BandBlocks

open Cert.KernelIdeal Cert.KernelIdeal.Gen Cert.GramSquares Cert.KernelIdeal.RunningTotal
open Idealize.ShloMosaic Idealize.ShloMosaic.TcCoe Idealize.SL.Sem Idealize.ShloMosaic.ValueIdx
open scoped BigOperators

variable (m : (ℓ : Loc nD τ sig) → Buf (Elt Ideal) ℓ)

/-- The three index maps over the grid: the block of X follows t / 8, the block of Y follows t % 8, the output
    row follows t / 8; every other block coordinate is 0. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- The row band of X, and the row band of Y, that point `t` works on. -/
def rowBand (t : Fin cfg0.N) : Fin 8 := ⟨t.val / 8, by have := t.isLt; have hN : cfg0.N = 64 := N_0; omega⟩
def colBand (t : Fin cfg0.N) : Fin 8 := ⟨t.val % 8, by omega⟩

/-- The staged block of X at point `t` is band `t / 8` of X. -/
theorem xblk_apply (c : Dev nD) (t : Fin cfg0.N) (p d : Fin 1024) :
    xblk m c t (ix2 p d) = m ((c : Thread nD τ).loc main_arg0) (ix2 (bandRow (rowBand t) p) d) := by
  show m ((c : Thread nD τ).loc main_arg0) (((cfg0.win 0).blk t).view.emb (ix2 p d)) = _
  congr 1
  obtain ⟨e0, e1, -⟩ := idx_facts t
  funext a; apply Fin.ext
  match a with
  | ⟨0, _⟩ => show win0_0.index t (0 : Fin 2) * 1024 + 1 * p.val = 1024 * (t.val / 8) + p.val; omega
  | ⟨1, _⟩ => show win0_0.index t (1 : Fin 2) * 1024 + 1 * d.val = d.val; omega

/-- The staged block of Y at point `t` is band `t % 8` of Y. -/
theorem yblk_apply (c : Dev nD) (t : Fin cfg0.N) (q d : Fin 1024) :
    yblk m c t (ix2 q d) = m ((c : Thread nD τ).loc main_arg1) (ix2 (bandRow (colBand t) q) d) := by
  show m ((c : Thread nD τ).loc main_arg1) (((cfg0.win 1).blk t).view.emb (ix2 q d)) = _
  congr 1
  obtain ⟨-, -, e0, e1, -⟩ := idx_facts t
  funext a; apply Fin.ext
  match a with
  | ⟨0, _⟩ => show win0_1.index t (0 : Fin 2) * 1024 + 1 * q.val = 1024 * (t.val % 8) + q.val; omega
  | ⟨1, _⟩ => show win0_1.index t (1 : Fin 2) * 1024 + 1 * d.val = d.val; omega

/-- So point `n` contributes what its band pair contributes. -/
theorem contrib_eq (c : Dev nD) (n : ℕ) (h : n < cfg0.N) :
    contrib m c n = bandPair (m ((c : Thread nD τ).loc main_arg0)) (m ((c : Thread nD τ).loc main_arg1)) (rowBand ⟨n, h⟩) (colBand ⟨n, h⟩) := by
  unfold contrib
  rw [dif_pos h]
  exact blockPair_eq_bandPair _ _ _ _ _ _ (fun p d => xblk_apply m c ⟨n, h⟩ p d) (fun q d => yblk_apply m c ⟨n, h⟩ q d)

/-- The total of row band `i`: the running total after its last point is the sum of its eight band pairs. -/
theorem running_last (c : Dev nD) (i : Fin 8) :
    running m c (8 * i.val + 7) = ∑ j : Fin 8, bandPair (m ((c : Thread nD τ).loc main_arg0)) (m ((c : Thread nD τ).loc main_arg1)) i j := by
  have hN : cfg0.N = 64 := N_0
  have hi := i.isLt
  unfold running
  have e1 : (8 * i.val + 7) % 8 + 1 = 8 := by omega
  have e2 : 8 * i.val + 7 - (8 * i.val + 7) % 8 = 8 * i.val := by omega
  rw [e1, e2, Finset.sum_range]
  refine Finset.sum_congr rfl fun j _ => ?_
  have hj := j.isLt
  have hlt : 8 * i.val + j.val < cfg0.N := by omega
  rw [contrib_eq m c _ hlt]
  congr 1
  · apply Fin.ext; show (8 * i.val + j.val) / 8 = i.val; omega
  · apply Fin.ext; show (8 * i.val + j.val) % 8 = j.val; omega

end Cert.KernelIdeal.BandBlocks

end
-- ==== Proof.Result.lean ====
/-
  The kernel's result.

  Row i of the [8, 1, 128] output array is written back once, after the last point of row band i, holding that
  band's total in every lane; the eight rows tile the array, so after the run the array at (i, 0, l) is the total
  of row band i. The host lines after the region take lane 0 of every row, flatten to eight numbers and add them
  to zero. With each band total the sum of its eight band pairs, and zero the unit of addition, the result is the
  sum over all 64 band pairs: the whole sum of squares.
-/
import proofs.«103511_j2070174236952_1_alg».proof.Proof.BandBlocks
import Idealize.ShloMosaic.Lib.StableHlo.Run

set_option maxRecDepth 16384

noncomputable section

namespace Cert.KernelIdeal.Result

open Cert.KernelIdeal Cert.KernelIdeal.Gen Cert.GramSquares Cert.KernelIdeal.RunningTotal Cert.KernelIdeal.BandBlocks
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The output array after the run: at (i, 0, l), the total of row band i. -/
def rowTotals (c : Dev nD) : Buf (Elt Ideal) ((c : Thread nD τ).loc main_v0) := fun I => running m c (8 * (I 0).val + 7)

/-- The write-back after the last point of a row band writes that band's row of `rowTotals`. -/
theorem flushed_eq (c : Dev nD) (t : Fin cfg0.N) (hf : (cfg0.win 2).flush t = true) :
    (dats m 0 c).flushed 2 t = ((cfg0.win 2).blk t).view.read (Elt Ideal) (rowTotals m c) := by
  have h7 : t.val % 8 = 7 := (flush0_2 t).mp hf
  show (cfg0.win 2).cut (grid0.coords t) ((dats m 0 c).after 2 t) = _
  rw [after0_2, row_eq m c t.val t.isLt h7]
  funext y
  show running m c t.val = rowTotals m c (((cfg0.win 2).blk t).view.emb y)
  unfold rowTotals
  obtain ⟨-, -, -, -, e0, -⟩ := idx_facts t
  have hy : (y 0).val < 1 := (y 0).isLt
  have e : ((((cfg0.win 2).blk t).view.emb y) 0).val = t.val / 8 := by
    show win0_2.index t (0 : Fin 3) * 1 + 1 * (y 0).val = t.val / 8
    omega
  rw [e]
  congr 1
  omega

/-- An index of the output array is in point `t`'s block iff each coordinate is in the block's range. -/
theorem mem_blk (t : Fin cfg0.N) (I : S8x1x128.Idx) :
    I ∈ ((cfg0.win 2).blk t).view.set ↔ ∀ a : Fin 3, win0_2.index t a * S1x1x128.size a ≤ (I a).val ∧ (I a).val < win0_2.index t a * S1x1x128.size a + S1x1x128.size a := by
  show I ∈ ((View.whole main_v0).slice (win0_2.rect t)).set ↔ _
  rw [View.set_slice_whole, Rect.mem_set_unit]
  exact Iff.rfl

/-- Every index of the output array is in the block written back after the last point of its row's band. -/
theorem covered (I : S8x1x128.Idx) : ∃ t : Fin cfg0.N, (cfg0.win 2).flush t = true ∧ I ∈ ((cfg0.win 2).blk t).view.set := by
  have hN : cfg0.N = 64 := N_0
  have hN' : grid0.N = 64 := N_0
  have h0 : (I 0).val < 8 := (I 0).isLt
  have h1 : (I 1).val < 1 := (I 1).isLt
  have h2 : (I 2).val < 128 := (I 2).isLt
  refine ⟨⟨8 * (I 0).val + 7, by omega⟩, (flush0_2 _).mpr (by show (8 * (I 0).val + 7) % 8 = 7; omega), ?_⟩
  rw [mem_blk]
  obtain ⟨-, -, -, -, e0, e1, e2⟩ := idx_facts ⟨8 * (I 0).val + 7, by omega⟩
  have e0' : win0_2.index ⟨8 * (I 0).val + 7, by omega⟩ (0 : Fin 3) = (8 * (I 0).val + 7) / 8 := e0
  intro a
  match a with
  | ⟨0, _⟩ => show win0_2.index ⟨8 * (I 0).val + 7, _⟩ (0 : Fin 3) * 1 ≤ (I 0).val ∧ (I 0).val < win0_2.index ⟨8 * (I 0).val + 7, _⟩ (0 : Fin 3) * 1 + 1; omega
  | ⟨1, _⟩ => show win0_2.index ⟨8 * (I 0).val + 7, _⟩ (1 : Fin 3) * 1 ≤ (I 1).val ∧ (I 1).val < win0_2.index ⟨8 * (I 0).val + 7, _⟩ (1 : Fin 3) * 1 + 1; omega
  | ⟨2, _⟩ => show win0_2.index ⟨8 * (I 0).val + 7, _⟩ (2 : Fin 3) * 128 ≤ (I 2).val ∧ (I 2).val < win0_2.index ⟨8 * (I 0).val + 7, _⟩ (2 : Fin 3) * 128 + 128; omega

/-- THE OUTPUT ARRAY after the run. -/
theorem final (c : Dev nD) : (dats m 0 c).arrAt 2 cfg0.N = rowTotals m c :=
  (dats m 0 c).arrAt_eq_of_cover 2 (rowTotals m c) (flushed_eq m c) covered

/-- A sum over a rank-1 index set is the sum over its one coordinate. -/
theorem sum_idx1 {M : Type*} [AddCommMonoid M] {n : Nat} (f : (⟨1, ![n]⟩ : Shape).Idx → M) :
    ∑ I, f I = ∑ i : Fin n, f (ix1 i) := by
  let e : (⟨1, ![n]⟩ : Shape).Idx ≃ Fin n :=
    { toFun := fun I => I 0, invFun := fun i => ix1 i, left_inv := fun I => (eq_ix1 I).symm, right_inv := fun _ => rfl }
  rw [← Equiv.sum_comp e.symm f]
  rfl

/-- Lane 0 of row i, after the slice [0:8, 0:1, 0:1] and the flattening to eight numbers. -/
theorem lane0 (out : S8x1x128.Idx → EReal) (i : Fin 8) :
    shapeCast S8 (extractStridedSlice S8x1x1 ![0, 0, 0] out slices_S8x1x128_S8x1x1_0_0_0) shapeCasts_S8x1x1_S8 (ix1 i)
      = out (ix3 i 0 0) := by
  rw [shapeCast_apply _ _ (ix1 i) (ix3 i 0 0) (by
    rw [Shape.rowMajor_val_three, Shape.rowMajor_val_one]
    show (i.val * 1 + 0) * 1 + 0 = i.val
    omega)]
  exact extractStridedSlice_apply _ _ _ _ (ix3 i 0 0) (fun a => by
    match a with
    | ⟨0, _⟩ => show i.val = 0 + i.val; omega
    | ⟨1, _⟩ => rfl
    | ⟨2, _⟩ => rfl)

/-- THE RESULT of the host lines after the region: the sum of squares over all pairs. -/
theorem tail_eq (c : Dev nD) :
    Pipeline.afterTail₀ cfgs (dats m) 0 (V0 m) [hostOps1] c main_v3
      = fun _ => total (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v0)
      = rowTotals m c := (Pipeline.withArrays_arr spec0 launch0.win.arr_inj c _ _ 2).trans (final m c)
  rw [hw]
  funext z
  simp only [Host.reduceAdd, Ideal.hostReduceAdd_def]
  rw [Ideal.hostReduceAdd_total reducesTo_S8_S_d0 (fun b => b.elim0), sum_idx1, total_eq_bands]
  show Ideal.ofBits .f32 0x00000000#32 + _ = _
  rw [Ideal.ofBits_zero_f32, zero_add]
  refine Finset.sum_congr rfl fun i _ => ?_
  show shapeCast S8 (extractStridedSlice S8x1x1 ![0, 0, 0] (rowTotals m c) slices_S8x1x128_S8x1x1_0_0_0) shapeCasts_S8x1x1_S8 (ix1 i) = _
  rw [lane0]
  show running m c (8 * i.val + 7) = _
  exact running_last m c i

/-- THE RUN, read: the result at the sum of squares over all pairs, the arguments unchanged. -/
theorem run : θ_run defs (onTc (τ := τ) (main (F := Ideal))) ⟨m, fun _ => 0, ρ⟩ fun r => ∀ c : Dev nD,
      r.2.mem ((c : Thread nD τ).loc main_v3)
        = (fun _ => total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (by decide)).trans (tail_eq m c),
        ((h c).1 0).trans ((dats m 0 c).arrAt_in 0 rfl _),
        ((h c).1 1).trans ((dats m 0 c).arrAt_in 1 rfl _)⟩)
    (run_main m ρ)

end Cert.KernelIdeal.Result

end
-- ==== Proof.ReferenceValue.lean ====
/-
  The reference's result.

  The reference forms the whole 8192 × 8192 product X·Yᵀ (entry (n, m) the sum over d of X[n, d] · Y[m, d]),
  multiplies it entrywise by itself and adds every entry to zero. Written by coordinates, that is the sum over
  n and m of the squared entries: the same `total` the kernel's band-by-band arrangement adds up to.
-/
import proofs.«103511_j2070174236952_1_alg».proof.Proof.Gen.ReferenceIdeal.Read
import proofs.«103511_j2070174236952_1_alg».proof.Proof.GramSquares

noncomputable section

namespace Cert.ReferenceIdeal.RefValue

open Cert.ReferenceIdeal Cert.ReferenceIdeal.Gen Cert.ReferenceIdeal.Read Cert.GramSquares
open Idealize.ShloMosaic Idealize.ShloMosaic.ValueIdx
open scoped BigOperators

/-- The product's left operand is read at row `J 0`, its right operand at row `J 1`, both at column `k`. -/
theorem lidx_eq (n m : Fin 8192) (k : Fin 1024) : lidx_main_v0 (ix2 n m) k = ix2 n k :=
  funext fun a => by match a with | ⟨0, _⟩ => rfl | ⟨1, _⟩ => rfl
theorem ridx_eq (n m : Fin 8192) (k : Fin 1024) : ridx_main_v0 (ix2 n m) k = ix2 m k :=
  funext fun a => by match a with | ⟨0, _⟩ => rfl | ⟨1, _⟩ => rfl

/-- THE REFERENCE'S RESULT is the sum of the squared entries of X·Yᵀ over all pairs. -/
theorem result_eq (X Y : (⟨S8192x1024, .f32⟩ : BufTy).Contents (Elt Ideal)) :
    val_main_v2 (F := Ideal) X Y = fun _ => total X Y := by
  funext z
  rw [val_main_v2_apply]
  show Ideal.ofBits .f32 0x00000000#32 + _ = _
  rw [Ideal.ofBits_zero_f32, zero_add, sum_idx2]
  unfold total
  refine Finset.sum_congr rfl fun n _ => Finset.sum_congr rfl fun k _ => ?_
  rw [val_main_v1_apply, val_main_v0_apply]
  simp only [lidx_eq, ridx_eq]
  rfl

end Cert.ReferenceIdeal.RefValue

end
-- ==== Proof.lean ====
/-
  The squared Frobenius norm of X·Yᵀ, for X and Y of shape [8192, 1024]: the kernel against jnp's
  sum((X @ Yᵀ)²).

  The kernel walks an 8 × 8 grid. Point (i, j) multiplies band i of X (1024 rows) by the transpose of band j of Y
  into a zero accumulator, squares the 1024 × 1024 product entrywise and adds all its entries into a one-element
  running total, which is reset at j = 0 and copied to row i of an [8, 1, 128] output at j = 7; the host then adds
  lane 0 of the eight rows to zero. The reference forms the whole 8192 × 8192 product, squares it and adds every
  entry to zero. On the extended reals the narrowing of the operands to bf16 is the identity, every product entry
  is the same sum over the 1024 columns on both sides, zero is the unit of addition, and a finite sum regrouped by
  bands is the same sum (addition is commutative and associative there): both results are `GramSquares.total`.
  No finiteness of the inputs is used.

  The three frames are the generated ones (the reference's is its generated run with the result dropped); the
  idealization rewrote nothing, so `preserves` is trivial.
-/
import proofs.«103511_j2070174236952_1_alg».proof.Defs
import proofs.«103511_j2070174236952_1_alg».proof.Proof.Gen.Kernel
import proofs.«103511_j2070174236952_1_alg».proof.Proof.Gen.Kernel.Skeleton
import proofs.«103511_j2070174236952_1_alg».proof.Proof.Gen.Kernel.Launch
import proofs.«103511_j2070174236952_1_alg».proof.Proof.Gen.Kernel.Points
import proofs.«103511_j2070174236952_1_alg».proof.Proof.Gen.Kernel.Frame
import proofs.«103511_j2070174236952_1_alg».proof.Proof.Gen.KernelIdeal
import proofs.«103511_j2070174236952_1_alg».proof.Proof.Gen.KernelIdeal.Skeleton
import proofs.«103511_j2070174236952_1_alg».proof.Proof.Gen.KernelIdeal.Launch
import proofs.«103511_j2070174236952_1_alg».proof.Proof.Gen.KernelIdeal.Points
import proofs.«103511_j2070174236952_1_alg».proof.Proof.Gen.KernelIdeal.Frame
import proofs.«103511_j2070174236952_1_alg».proof.Proof.Gen.ReferenceIdeal
import proofs.«103511_j2070174236952_1_alg».proof.Proof.Gen.ReferenceIdeal.Run
import proofs.«103511_j2070174236952_1_alg».proof.Proof.Gen.ReferenceIdeal.Read
import proofs.«103511_j2070174236952_1_alg».proof.Proof.Gen.Pre_finite_inputs
import proofs.«103511_j2070174236952_1_alg».proof.Proof.Result
import proofs.«103511_j2070174236952_1_alg».proof.Proof.ReferenceValue
import Idealize.ShloMosaic.Adequacy
import Idealize.ShloMosaic.Init

noncomputable section

namespace Cert.Proof

open Idealize.ShloMosaic Idealize.SL.Sem Cert.GramSquares

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the sum of the squared entries of X·Yᵀ over all pairs of rows, of arguments that agree. -/
theorem algebraic : Cert.algebraic_KernelIdeal_ReferenceIdeal := by
  intro m ρ m' ρ' _ hagree
  refine ⟨fun c => fun _ => total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
